-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x6 : Shape := ⟨3, ![64, 1024, 6]⟩
abbrev S512x512 : Shape := ⟨2, ![512, 512]⟩
abbrev S512x6 : Shape := ⟨2, ![512, 6]⟩
abbrev S64x1024x512 : Shape := ⟨3, ![64, 1024, 512]⟩
abbrev S_ : Shape := ⟨0, ![]⟩

class Facts : Prop where
  bcast_S_S64x1024x6 : S_.BroadcastsInDim S64x1024x6 (![] : Fin 0 → Fin S64x1024x6.rank)
  reducesTo_S64x1024x6_S_d0_1_2 : S64x1024x6.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512x6 : S_.BroadcastsInDim S512x6 (![] : Fin 0 → Fin S512x6.rank)
  reducesTo_S512x6_S_d0_1 : S512x6.ReducesTo [0, 1] S_
  bcast_S_S64x1024x512 : S_.BroadcastsInDim S64x1024x512 (![] : Fin 0 → Fin S64x1024x512.rank)
  reducesTo_S64x1024x512_S_d0_1_2 : S64x1024x512.ReducesTo [0, 1, 2] S_

variable [Facts]

def fn_part1 {F : FTy → Type} [FloatOps F] (main_v13 : IVec S_ 1) (main_v16 : IVec S64x1024x512 1) : IVec S_ 1 :=
  let main_c_5 : IVec S_ 1 := constantI S_ 1 1#1
  let main_v17 : IVec S_ 1 := (fun x v => Host.reduce IntOp.andi x v reducesTo_S64x1024x512_S_d0_1_2 h_S_) main_v16 main_c_5
  let main_v18 : IVec S_ 1 := andi main_v13 main_v17
  main_v18

def fn {F : FTy → Type} [FloatOps F] (main_arg0 : FVec F S64x1024x6 .f32) (main_arg1 : FVec F S512x512 .f32) (main_arg2 : FVec F S512x6 .f32) (main_arg3 : FVec F S64x1024x512 .f32) : IVec S_ 1 :=
  let main_v0 : FVec F S64x1024x6 .f32 := Host.absf main_arg0
  let main_cst : FVec F S_ .f32 := constant S_ .f32 0x7F800000#32
  let main_v1 : FVec F S64x1024x6 .f32 := broadcastInDim S64x1024x6 ![] bcast_S_S64x1024x6 main_cst
  let main_v2 : IVec S64x1024x6 1 := cmpf .olt main_v0 main_v1
  let main_c : IVec S_ 1 := constantI S_ 1 1#1
  let main_v3 : IVec S_ 1 := (fun x v => Host.reduce IntOp.andi x v reducesTo_S64x1024x6_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x6 .f32 := Host.absf main_arg2
  let main_cst_2 : FVec F S_ .f32 := constant S_ .f32 0x7F800000#32
  let main_v10 : FVec F S512x6 .f32 := broadcastInDim S512x6 ![] bcast_S_S512x6 main_cst_2
  let main_v11 : IVec S512x6 1 := cmpf .olt main_v9 main_v10
  let main_c_3 : IVec S_ 1 := constantI S_ 1 1#1
  let main_v12 : IVec S_ 1 := (fun x v => Host.reduce IntOp.andi x v reducesTo_S512x6_S_d0_1 h_S_) main_v11 main_c_3
  let main_v13 : IVec S_ 1 := andi main_v8 main_v12
  let main_v14 : FVec F S64x1024x512 .f32 := Host.absf main_arg3
  let main_cst_4 : FVec F S_ .f32 := constant S_ .f32 0x7F800000#32
  let main_v15 : FVec F S64x1024x512 .f32 := broadcastInDim S64x1024x512 ![] bcast_S_S64x1024x512 main_cst_4
  let main_v16 : IVec S64x1024x512 1 := cmpf .olt main_v14 main_v15
  fn_part1 (F := F) main_v13 main_v16
-- ==== Kernel.lean ====
abbrev S64x1024x6 : Shape := ⟨3, ![64, 1024, 6]⟩
abbrev S512x512 : Shape := ⟨2, ![512, 512]⟩
abbrev S512x6 : Shape := ⟨2, ![512, 6]⟩
abbrev S64x1024x512 : Shape := ⟨3, ![64, 1024, 512]⟩
abbrev S1x1024x6 : Shape := ⟨3, ![1, 1024, 6]⟩
abbrev S1x1024x512 : Shape := ⟨3, ![1, 1024, 512]⟩
abbrev S1024x6 : Shape := ⟨2, ![1024, 6]⟩
abbrev S6x512 : Shape := ⟨2, ![6, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S64x1024x6, .f32⟩
  | .hbm, ⟨1, _⟩ => ⟨S512x512, .f32⟩
  | .hbm, ⟨2, _⟩ => ⟨S512x6, .f32⟩
  | .hbm, ⟨3, _⟩ => ⟨S64x1024x512, .f32⟩
  | .hbm, ⟨4, _⟩ => ⟨S64x1024x512, .f32⟩
  | .local _ .vmem, ⟨0, _⟩ => ⟨S1x1024x6, .f32⟩
  | .local _ .vmem, ⟨1, _⟩ => ⟨S1x1024x6, .f32⟩
  | .local _ .vmem, ⟨2, _⟩ => ⟨S512x6, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x1024x512, .f32⟩
  | _, _ => ⟨S64x1024x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x1024x6_S1x1024x6_0_0_0 : ∀ a, (![0, 0, 0] : Fin 3 → Nat) a + S1x1024x6.size a ≤ S1x1024x6.size a
  h_S1x1024x6 : 0 < S1x1024x6.numel
  shapeCasts_S1x1024x6_S1024x6 : S1x1024x6.ShapeCasts S1024x6
  bitsLt_bf16_f32 : FTy.bits .bf16 < FTy.bits .f32
  inb_S512x6_S512x6_0_0 : ∀ a, (![0, 0] : Fin 2 → Nat) a + S512x6.size a ≤ S512x6.size a
  h_S512x6 : 0 < S512x6.numel
  transposes_S512x6_p1_0_S6x512 : S512x6.Transposes [1, 0] S6x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  iota_S1024x512_d0_w32 : S1024x512.Iotas .tc 32 [0]
  shapeCasts_S1024x512_S1x1024x512 : S1024x512.ShapeCasts S1x1024x512
  dot_S1024x6_S6x512_S1024x512_1_0_0_1_n_n_wf : DotDims.WF S1024x6 S6x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x6.size a ≤ S64x1024x6.size a
  hwx0_0 : ∀ i : grid0.Coords, EltTy.bits .f32 = 32 ∨ (Rect.block (s := S64x1024x6) S1x1024x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x6.size a ≤ S512x6.size a
  hwx0_1 : ∀ i : grid0.Coords, EltTy.bits .f32 = 32 ∨ (Rect.block (s := S512x6) S512x6.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S64x1024x512.size a
  hwx0_2 : ∀ i : grid0.Coords, EltTy.bits .f32 = 32 ∨ (Rect.block (s := S64x1024x512) S1x1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x512.size a ≤ S64x1024x512.size a
  hwx0_3 : ∀ i : grid0.Coords, EltTy.bits .f32 = 32 ∨ (Rect.block (s := S64x1024x512) S1x1024x512.size (cc0_transform_3 i) (hinb0_3 i)).WholeWords (EltTy.packing .f32)

variable [Facts₀]

def dot_S1024x6_S6x512_S1024x512_1_0_0_1_n_n : DotDims S1024x6 S6x512 S1024x512 where
  lhsContracting := [1]
  rhsContracting := [0]
  lhsNonContracting := [0]
  rhsNonContracting := [1]
  lhsBatch := []
  rhsBatch := []
  wf := dot_S1024x6_S6x512_S1024x512_1_0_0_1_n_n_wf

abbrev win0_0 : Pipeline.Window sig grid0 :=
  Pipeline.Window.ofSpec (Memref.whole main_arg0) S1x1024x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x6.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x1024x6 : Shape := ⟨3, ![64, 1024, 6]⟩
abbrev S512x512 : Shape := ⟨2, ![512, 512]⟩
abbrev S512x6 : Shape := ⟨2, ![512, 6]⟩
abbrev S64x1024x512 : Shape := ⟨3, ![64, 1024, 512]⟩
abbrev S_ : Shape := ⟨0, ![]⟩
abbrev S1 : Shape := ⟨1, ![1]⟩
abbrev S64x512 : Shape := ⟨2, ![64, 512]⟩

abbrev nBuf : Space → Nat
  | .hbm => 17
  | .vmem => 0
  | .smem => 0
  | _ => 0

abbrev bufTy : (tb : Table) → Fin (tcTables nBuf tb) → BufTy
  | .hbm, ⟨0, _⟩ => ⟨S64x1024x6, .f32⟩
  | .hbm, ⟨1, _⟩ => ⟨S512x512, .f32⟩
  | .hbm, ⟨2, _⟩ => ⟨S512x6, .f32⟩
  | .hbm, ⟨3, _⟩ => ⟨S64x1024x512, .f32⟩
  | .hbm, ⟨4, _⟩ => ⟨S64x1024x512, .f32⟩
  | .hbm, ⟨5, _⟩ => ⟨S64x1024x512, .f32⟩
  | .hbm, ⟨6, _⟩ => ⟨S_, .f32⟩
  | .hbm, ⟨7, _⟩ => ⟨S64x1024x512, .f32⟩
  | .hbm, ⟨8, _⟩ => ⟨S64x1024x512, .f32⟩
  | .hbm, ⟨9, _⟩ => ⟨S_, .f32⟩
  | .hbm, ⟨10, _⟩ => ⟨S64x1024x512, .f32⟩
  | .hbm, ⟨11, _⟩ => ⟨S64x1024x512, .f32⟩
  | .hbm, ⟨12, _⟩ => ⟨S_, .i32⟩
  | .hbm, ⟨13, _⟩ => ⟨S1, .i32⟩
  | .hbm, ⟨14, _⟩ => ⟨S_, .f32⟩
  | .hbm, ⟨15, _⟩ => ⟨S64x512, .f32⟩
  | .hbm, ⟨16, _⟩ => ⟨S64x1024x512, .f32⟩
  | _, _ => ⟨S64x1024x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩

abbrev nD : Nat := 1
abbrev τ : Topo := Topo.v7x

variable {F : FTy → Type} [FloatOps F]

class Facts₀ : Prop where
  bcast_S_S64x1024x512 : S_.BroadcastsInDim S64x1024x512 (![] : Fin 0 → Fin S64x1024x512.rank)
  bcast_S_S1 : S_.BroadcastsInDim S1 (![] : Fin 0 → Fin S1.rank)
  bcast_S_S64x512 : S_.BroadcastsInDim S64x512 (![] : Fin 0 → Fin S64x512.rank)
  dot_S64x1024x6_S512x6_S64x1024x512_2_1_01_0_n_n_wf : DotDims.WF S64x1024x6 S512x6 S64x1024x512 [2] [1] [0, 1] [0] [] []
  scatter_S64x1024x512_S1_S64x512_01_1_1_0_wf : ScatterDims.WF S64x1024x512 S1 S64x512 [0, 1] [1] [1] 0

variable [Facts₀]

def dot_S64x1024x6_S512x6_S64x1024x512_2_1_01_0_n_n : DotDims S64x1024x6 S512x6 S64x1024x512 where
  lhsContracting := [2]
  rhsContracting := [1]
  lhsNonContracting := [0, 1]
  rhsNonContracting := [0]
  lhsBatch := []
  rhsBatch := []
  wf := dot_S64x1024x6_S512x6_S64x1024x512_2_1_01_0_n_n_wf
def scatter_S64x1024x512_S1_S64x512_01_1_1_0 : ScatterDims S64x1024x512 S1 S64x512 where
  updateWindowDims := [0, 1]
  insertedWindowDims := [1]
  scatterDimsToOperandDims := [1]
  indexVectorDim := 0
  wf := scatter_S64x1024x512_S1_S64x512_01_1_1_0_wf

class Facts : Prop extends Facts₀ where

variable [Facts]
-- ==== Proof.BodyValue.lean ====
/-
  What the kernel body stores, read at one element.

  The body loads a `[1, 1024, 6]` block of inputs, the `[512, 6]` input weights and a `[1, 1024, 512]` block of noise.
  It multiplies the inputs (unit axis dropped) by the TRANSPOSED weights into a zero accumulator — at the ideal values
  the plain sum over the six input channels, the change of float format being the identity —, adds the noise, takes the
  maximum with zero, scales by the 0.2 word, and overwrites row 0 (selected by comparing a row counter with zero) with
  zero. At `(0, r, n)` of the stored block that is the state formula with the block's own rows.
-/
import proofs.«153353_j27453430956109_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Affine

noncomputable section

namespace Cert.RnnStates.Body

open Cert.KernelIdeal Cert.KernelIdeal.Gen Idealize.ShloMosaic Idealize.ShloMosaic.ValueIdx

/-! ## The matrix product's operand indices -/

theorem lhs_0 (i : S1024x512.Idx) (q : dot_S1024x6_S6x512_S1024x512_1_0_0_1_n_n.contr.Idx) :
    (dot_S1024x6_S6x512_S1024x512_1_0_0_1_n_n.lhsIdx i q 0).val = (i 0).val := by
  unfold DotDims.lhsIdx
  rw [dif_neg (show ¬(0 : Fin S1024x6.rank) ∈ dot_S1024x6_S6x512_S1024x512_1_0_0_1_n_n.lhsBatch by decide), dif_pos (show (0 : Fin S1024x6.rank) ∈ dot_S1024x6_S6x512_S1024x512_1_0_0_1_n_n.lhsNonContracting by decide)]
  rfl
theorem lhs_1 (i : S1024x512.Idx) (q : dot_S1024x6_S6x512_S1024x512_1_0_0_1_n_n.contr.Idx) :
    (dot_S1024x6_S6x512_S1024x512_1_0_0_1_n_n.lhsIdx i q 1).val = (q ⟨0, by decide⟩).val :=
  dot_S1024x6_S6x512_S1024x512_1_0_0_1_n_n.lhsIdx_val_of_single rfl i q
theorem rhs_0 (i : S1024x512.Idx) (q : dot_S1024x6_S6x512_S1024x512_1_0_0_1_n_n.contr.Idx) :
    (dot_S1024x6_S6x512_S1024x512_1_0_0_1_n_n.rhsIdx i q 0).val = (q ⟨0, by decide⟩).val :=
  dot_S1024x6_S6x512_S1024x512_1_0_0_1_n_n.rhsIdx_val_of_single rfl i q
theorem rhs_1 (i : S1024x512.Idx) (q : dot_S1024x6_S6x512_S1024x512_1_0_0_1_n_n.contr.Idx) :
    (dot_S1024x6_S6x512_S1024x512_1_0_0_1_n_n.rhsIdx i q 1).val = (i 1).val := by
  unfold DotDims.rhsIdx
  rw [dif_neg (show ¬(1 : Fin S6x512.rank) ∈ dot_S1024x6_S6x512_S1024x512_1_0_0_1_n_n.rhsBatch by decide), dif_pos (show (1 : Fin S6x512.rank) ∈ dot_S1024x6_S6x512_S1024x512_1_0_0_1_n_n.rhsNonContracting by decide)]
  rfl

/-- The product into the zero accumulator at `(r, n)`: the sum over the contracted axis of row `r` of the left operand
    times column `n` of the right. -/
theorem matmul_at (l : FVec Ideal S1024x6 .bf16) (rr : FVec Ideal S6x512 .bf16) (r : Fin 1024) (n : Fin 512) :
    matmul dot_S1024x6_S6x512_S1024x512_1_0_0_1_n_n none l rr (constant (F := Ideal) S1024x512 .f32 0x00000000#32) (ix2 r n)
      = ∑ k : Fin 6, l (ix2 r k) * rr (ix2 k n) := by
  simp only [matmul]
  rw [Ideal.matmul_constant_zero_apply, ← Equiv.sum_comp (ValueIdx.contrEquiv1 dot_S1024x6_S6x512_S1024x512_1_0_0_1_n_n 6 rfl rfl).symm]
  refine Finset.sum_congr rfl fun k _ => ?_
  have hk := ValueIdx.contrEquiv1_symm_val dot_S1024x6_S6x512_S1024x512_1_0_0_1_n_n 6 rfl rfl k
  have el : dot_S1024x6_S6x512_S1024x512_1_0_0_1_n_n.lhsIdx (ix2 r n) ((ValueIdx.contrEquiv1 dot_S1024x6_S6x512_S1024x512_1_0_0_1_n_n 6 rfl rfl).symm k) = ix2 r k := funext fun a => Fin.ext (by
    match a with
    | ⟨0, _⟩ => exact lhs_0 _ _
    | ⟨1, _⟩ => exact (lhs_1 _ _).trans hk)
  have er : dot_S1024x6_S6x512_S1024x512_1_0_0_1_n_n.rhsIdx (ix2 r n) ((ValueIdx.contrEquiv1 dot_S1024x6_S6x512_S1024x512_1_0_0_1_n_n 6 rfl rfl).symm k) = ix2 k n := funext fun a => Fin.ext (by
    match a with
    | ⟨0, _⟩ => exact (rhs_0 _ _).trans hk
    | ⟨1, _⟩ => exact rhs_1 _ _)
  rw [el, er]

/-- The right operand of the product: the weights, format changed and transposed, at `(k, n)` are the weights at `(n, k)`. -/
theorem weights_T (x1 : FVec Ideal S512x6 .f32) (k : Fin 6) (n : Fin 512) :
    transpose S6x512 [1, 0] (truncf .bf16 x1 bitsLt_bf16_f32 : FVec Ideal S512x6 .bf16) transposes_S512x6_p1_0_S6x512 (ix2 k n)
      = (x1 (ix2 n k) : EReal) :=
  (transpose_ix2_apply _ _ k n).trans rfl

/-- The row mask: the row counter compared with zero is set exactly on row 0. -/
theorem row_mask (r : Fin 1024) (n : Fin 512) :
    cmpi .eq (iota .tc S1024x512 32 [0] iota_S1024x512_d0_w32) (broadcast S1024x512 0#32) (ix2 r n) = 1#1 ↔ r.val = 0 := by
  show IntOp.cmpi .eq (iota .tc S1024x512 32 [0] iota_S1024x512_d0_w32 (ix2 r n)) 0#32 = 1#1 ↔ _
  rw [iota_single_apply, IntOp.cmpi_eq]
  show BitVec.ofNat 32 r.val = 0#32 ↔ r.val = 0
  constructor
  · intro h
    have h' := congrArg BitVec.toNat h
    rw [BitVec.toNat_ofNat] at h'
    have hlt := r.isLt
    have : r.val % 2 ^ 32 = r.val := Nat.mod_eq_of_lt (by omega)
    rw [this] at h'
    exact h'
  · intro h; rw [h]

/-- THE STORED BLOCK at `(u, r, n)`. -/
theorem payload_at (x0 : Vec Ideal S1x1024x6 .f32) (x1 : Vec Ideal S512x6 .f32) (x2 : Vec Ideal S1x1024x512 .f32)
    (u : Fin 1) (r : Fin 1024) (n : Fin 512) :
    k0_pay1 x0 x1 x2 (ix3 u r n)
      = if r.val = 0 then Ideal.ofBits .f32 0x00000000#32
        else Ideal.ofBits .f32 0x3E4CCCCD#32
          * max (∑ k : Fin 6, x0 (ix3 (0 : Fin 1) r k) * x1 (ix2 n k) + x2 (ix3 (0 : Fin 1) r n)) (Ideal.ofBits .f32 0x00000000#32) := by
  unfold k0_pay1
  dsimp only
  refine (shapeCast_ab_1ab_apply _ _ u r n).trans ?_
  by_cases hr : r.val = 0
  · rw [if_pos hr, select_apply, (row_mask r n).2 hr, select_one]
    rfl
  · rw [if_neg hr, select_apply, eq_zero_of_ne_one (fun h => hr ((row_mask r n).1 h)), select_zero]
    rw [mulf_apply, maximumf_apply, addf_apply, matmul_at, shapeCast_1ab_ab_apply]
    have hsum : (∑ k : Fin 6, (truncf .bf16 (shapeCast S1024x6 x0 shapeCasts_S1x1024x6_S1024x6) bitsLt_bf16_f32 : FVec Ideal S1024x6 .bf16) (ix2 r k)
          * (transpose S6x512 [1, 0] (truncf .bf16 x1 bitsLt_bf16_f32 : FVec Ideal S512x6 .bf16) transposes_S512x6_p1_0_S6x512) (ix2 k n))
        = ∑ k : Fin 6, x0 (ix3 (0 : Fin 1) r k) * x1 (ix2 n k) :=
      Finset.sum_congr rfl fun k _ => by
        rw [weights_T x1 k n]
        exact congrArg (· * x1 (ix2 n k)) (shapeCast_1ab_ab_apply x0 _ r k)
    rw [hsum]
    rfl

end Cert.RnnStates.Body

end
-- ==== Proof.Spec.lean ====
/-
  The function both programs compute, index by index over the extended reals.

  For a batch `b`, a time step `t` and a unit `n`, the pre-activation is the input drive plus the noise,
      ∑ k < 6, u[b, t, k] · w[n, k] + z[b, t, n],
  and the state is `c · max(pre-activation, 0)` with `c` the f32 word of 0.2 — except at the first time step,
  `t = 0`, where the state is zero. The two literals are kept as their words: both programs spell the same words,
  so they are never evaluated.
-/
import Idealize.ShloMosaic.PureOps.Ideal
import Idealize.ShloMosaic.Lib.ValueIdx

noncomputable section

namespace Cert.RnnStates

open Idealize.ShloMosaic Idealize.ShloMosaic.ValueIdx

/-- The input drive plus the noise at `(b, t, n)`. -/
def preact (u : FVec Ideal ⟨3, ![64, 1024, 6]⟩ .f32) (w : FVec Ideal ⟨2, ![512, 6]⟩ .f32)
    (z : FVec Ideal ⟨3, ![64, 1024, 512]⟩ .f32) (b : Fin 64) (t : Fin 1024) (n : Fin 512) : EReal :=
  ∑ k : Fin 6, u (ix3 b t k) * w (ix2 n k) + z (ix3 b t n)

/-- The state at `(b, t, n)`: zero at the first time step, `0.2 · relu` of the pre-activation afterwards. -/
def stateAt (u : FVec Ideal ⟨3, ![64, 1024, 6]⟩ .f32) (w : FVec Ideal ⟨2, ![512, 6]⟩ .f32)
    (z : FVec Ideal ⟨3, ![64, 1024, 512]⟩ .f32) (b : Fin 64) (t : Fin 1024) (n : Fin 512) : EReal :=
  if t.val = 0 then Ideal.ofBits .f32 0x00000000#32
  else Ideal.ofBits .f32 0x3E4CCCCD#32 * max (preact u w z b t n) (Ideal.ofBits .f32 0x00000000#32)

/-- The whole array of states. -/
def states (u : FVec Ideal ⟨3, ![64, 1024, 6]⟩ .f32) (w : FVec Ideal ⟨2, ![512, 6]⟩ .f32)
    (z : FVec Ideal ⟨3, ![64, 1024, 512]⟩ .f32) : FVec Ideal ⟨3, ![64, 1024, 512]⟩ .f32 := fun i =>
  stateAt u w z (i 0) (i 1) (i 2)

theorem states_ix3 (u : FVec Ideal ⟨3, ![64, 1024, 6]⟩ .f32) (w : FVec Ideal ⟨2, ![512, 6]⟩ .f32)
    (z : FVec Ideal ⟨3, ![64, 1024, 512]⟩ .f32) (b : Fin 64) (t : Fin 1024) (n : Fin 512) :
    states u w z (ix3 b t n) = stateAt u w z b t n := rfl

end Cert.RnnStates

end
-- ==== Proof.KernelStates.lean ====
/-
  The kernel's result array is `states` of its arguments.

  The grid runs over the 64 batches. At point `t` the input window holds batch `t` of the inputs, the noise window batch
  `t` of the noise, the weights window the whole weight matrix, and the body's stored block is written back as batch `t`
  of the result. So what point `t` writes back is batch `t` of `states` (the stored block read at an element is the state
  formula over the block's rows, which are the arrays' rows of batch `t`), the 64 blocks cover the result, and the
  result array ends as `states` of the argument arrays.
-/
import proofs.«153353_j27453430956109_1_alg».proof.Proof.Gen.KernelIdeal.Value
import proofs.«153353_j27453430956109_1_alg».proof.Proof.BodyValue
import proofs.«153353_j27453430956109_1_alg».proof.Proof.Spec

noncomputable section

namespace Cert.RnnStates.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The three argument arrays the body reads, as the region finds them, at their literal types. -/
abbrev uArr (c : Dev nD) : FVec Ideal S64x1024x6 .f32 := V m c main_arg0
abbrev wArr (c : Dev nD) : FVec Ideal S512x6 .f32 := V m c main_arg2
abbrev zArr (c : Dev nD) : FVec Ideal S64x1024x512 .f32 := V m c main_arg3

theorem origin3 : (![0, 0, 0] : Fin 3 → Nat) = fun _ => 0 := funext fun a => by fin_cases a <;> rfl
theorem origin2 : (![0, 0] : Fin 2 → Nat) = fun _ => 0 := funext fun a => by fin_cases a <;> rfl

/-- The index maps over the grid: the batch axis' block index is the grid point, every other block index is zero. -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The stored block at an element, when the loaded blocks are batch `b` of the inputs and the noise and the whole
    weights: the state at `(b, r, n)`. -/
theorem point_eq (x0 : Vec Ideal S1x1024x6 .f32) (x1 : Vec Ideal S512x6 .f32) (x2 : Vec Ideal S1x1024x512 .f32)
    (a0 : FVec Ideal S64x1024x6 .f32) (a2 : FVec Ideal S512x6 .f32) (a3 : FVec Ideal S64x1024x512 .f32) (b : Fin 64)
    (h0 : ∀ (r : Fin 1024) (k : Fin 6), x0 (ix3 (0 : Fin 1) r k) = a0 (ix3 b r k))
    (h1 : ∀ (n : Fin 512) (k : Fin 6), x1 (ix2 n k) = a2 (ix2 n k))
    (h2 : ∀ (r : Fin 1024) (n : Fin 512), x2 (ix3 (0 : Fin 1) r n) = a3 (ix3 b r n))
    (u : Fin 1) (r : Fin 1024) (n : Fin 512) :
    k0_pay1 x0 x1 x2 (ix3 u r n) = stateAt a0 a2 a3 b r n := by
  rw [Body.payload_at]
  unfold stateAt preact
  simp only [h0, h1, h2]

/-- WHAT POINT `t` WRITES BACK is block `t` of `states` of the argument arrays. -/
theorem flushed_eq (c : Dev nD) (t : Fin cfg0.N) :
    (dats m 0 c).flushed 3 t
      = ((cfg0.win 3).blk t).view.read (Elt Ideal) (states (uArr m c) (wArr m c) (zArr m c)) := by
  rw [Cert.KernelIdeal.Value.flushed3]
  unfold out0_3
  rw [View.canon_unit_zero origin3]
  simp only [View.ld_unit_zero (S := S1x1024x6) origin3, View.ld_unit_zero (S := S512x6) origin2,
    View.ld_unit_zero (S := S1x1024x512) origin3]
  obtain ⟨e00, e01, e02, e10, e11, e20, e21, e22, e30, e31, e32⟩ := index_facts t
  have htlt : t.val < 64 := lt_of_lt_of_eq t.isLt N_0
  funext j
  obtain ⟨u, r, n, rfl⟩ : ∃ (u : Fin 1) (r : Fin 1024) (n : Fin 512), j = ix3 u r n := ⟨j 0, j 1, j 2, eq_ix3 j⟩
  have hemb : ((cfg0.win 3).blk t).view.emb (ix3 u r n) = ix3 (⟨t.val, htlt⟩ : Fin 64) r n := by
    funext a; apply Fin.ext
    match a with
    | ⟨0, _⟩ => show win0_3.index t (0 : Fin 3) * 1 + 1 * u.val = t.val; have := u.isLt; omega
    | ⟨1, _⟩ => show win0_3.index t (1 : Fin 3) * 1024 + 1 * r.val = r.val; omega
    | ⟨2, _⟩ => show win0_3.index t (2 : Fin 3) * 512 + 1 * n.val = n.val; omega
  show k0_pay1 (iblk m c 0 t) (iblk m c 1 t) (iblk m c 2 t) (ix3 u r n)
    = states (uArr m c) (wArr m c) (zArr m c) (((cfg0.win 3).blk t).view.emb (ix3 u r n))
  rw [hemb, states_ix3]
  refine point_eq (iblk m c 0 t) (iblk m c 1 t) (iblk m c 2 t) (uArr m c) (wArr m c) (zArr m c) ⟨t.val, htlt⟩ ?_ ?_ ?_ u r n
  · intro r k
    show V m c main_arg0 (((cfg0.win 0).blk t).view.emb (ix3 (0 : Fin 1) r k)) = V m c main_arg0 (ix3 (⟨t.val, htlt⟩ : Fin 64) r k)
    refine congrArg _ (funext fun a => Fin.ext ?_)
    match a with
    | ⟨0, _⟩ => show win0_0.index t (0 : Fin 3) * 1 + 1 * 0 = t.val; omega
    | ⟨1, _⟩ => show win0_0.index t (1 : Fin 3) * 1024 + 1 * r.val = r.val; omega
    | ⟨2, _⟩ => show win0_0.index t (2 : Fin 3) * 6 + 1 * k.val = k.val; omega
  · intro n k
    show V m c main_arg2 (((cfg0.win 1).blk t).view.emb (ix2 n k)) = V m c main_arg2 (ix2 n k)
    refine congrArg _ (funext fun a => Fin.ext ?_)
    match a with
    | ⟨0, _⟩ => show win0_1.index t (0 : Fin 2) * 512 + 1 * n.val = n.val; omega
    | ⟨1, _⟩ => show win0_1.index t (1 : Fin 2) * 6 + 1 * k.val = k.val; omega
  · intro r n
    show V m c main_arg3 (((cfg0.win 2).blk t).view.emb (ix3 (0 : Fin 1) r n)) = V m c main_arg3 (ix3 (⟨t.val, htlt⟩ : Fin 64) r n)
    refine congrArg _ (funext fun a => Fin.ext ?_)
    match a with
    | ⟨0, _⟩ => show win0_2.index t (0 : Fin 3) * 1 + 1 * 0 = t.val; omega
    | ⟨1, _⟩ => show win0_2.index t (1 : Fin 3) * 1024 + 1 * r.val = r.val; omega
    | ⟨2, _⟩ => show win0_2.index t (2 : Fin 3) * 512 + 1 * n.val = n.val; omega

/-- An index of the result array is in point `t`'s block iff each coordinate is in the block's range on its axis. -/
theorem mem_blk (t : Fin cfg0.N) (i : S64x1024x512.Idx) :
    i ∈ ((cfg0.win 3).blk t).view.set ↔ ∀ a : Fin 3, win0_3.index t a * S1x1024x512.size a ≤ (i a).val
      ∧ (i a).val < win0_3.index t a * S1x1024x512.size a + S1x1024x512.size a := by
  show i ∈ ((View.whole main_v0).slice (win0_3.rect t)).set ↔ _
  rw [View.set_slice_whole, Rect.mem_set_unit]
  exact Iff.rfl

/-- Every index of the result array lies in the block of the point that is its batch. -/
theorem cover (i : S64x1024x512.Idx) :
    ∃ t : Fin cfg0.N, (cfg0.win 3).flush t = true ∧ i ∈ ((cfg0.win 3).blk t).view.set := by
  have hi0 : (i 0).val < 64 := (i 0).isLt
  have hi1 : (i 1).val < 1024 := (i 1).isLt
  have hi2 : (i 2).val < 512 := (i 2).isLt
  have hN : (i 0).val < cfg0.N := lt_of_lt_of_eq hi0 N_0.symm
  refine ⟨⟨(i 0).val, hN⟩, flush0_3 _, ?_⟩
  rw [mem_blk]
  obtain ⟨-, -, -, -, -, -, -, -, e30, e31, e32⟩ := index_facts ⟨(i 0).val, hN⟩
  have e30' : win0_3.index ⟨(i 0).val, hN⟩ (0 : Fin 3) = (i 0).val := e30
  intro a
  match a with
  | ⟨0, _⟩ =>
    show win0_3.index ⟨(i 0).val, hN⟩ (0 : Fin 3) * 1 ≤ (i 0).val ∧ (i 0).val < win0_3.index ⟨(i 0).val, hN⟩ (0 : Fin 3) * 1 + 1
    omega
  | ⟨1, _⟩ =>
    show win0_3.index ⟨(i 0).val, hN⟩ (1 : Fin 3) * 1024 ≤ (i 1).val ∧ (i 1).val < win0_3.index ⟨(i 0).val, hN⟩ (1 : Fin 3) * 1024 + 1024
    omega
  | ⟨2, _⟩ =>
    show win0_3.index ⟨(i 0).val, hN⟩ (2 : Fin 3) * 512 ≤ (i 2).val ∧ (i 2).val < win0_3.index ⟨(i 0).val, hN⟩ (2 : Fin 3) * 512 + 512
    omega

/-- THE RESULT ARRAY after the run. -/
theorem final (c : Dev nD) : (dats m 0 c).arrAt 3 cfg0.N = states (uArr m c) (wArr m c) (zArr m c) :=
  (dats m 0 c).arrAt_eq_of_cover 3 (states (uArr m c) (wArr m c) (zArr m c)) (fun t _ => flushed_eq m c t) cover

/-- The kernel's run: the result at `states` of the launch contents of the arguments, the arguments unchanged. -/
theorem run : θ_run defs (onTc (τ := τ) (main (F := Ideal))) ⟨m, fun _ => 0, ρ⟩ fun r => ∀ c : Dev nD,
      r.2.mem ((c : Thread nD τ).loc main_v0)
        = states (m ((c : Thread nD τ).loc main_arg0)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.RnnStates.Kernel

end
-- ==== Proof.LibScatterSet.lean ====
/-
  A scatter whose body returns the update (jax's `x.at[idx].set(v)`), read at one element of its result.

  `Host.scatter d (fun _ b => b) x idx upd` is a left fold over the update indices in row-major order: each update
  index `j` whose result index `d.resultIdx? j idx` lies inside the operand overwrites that one element with `upd j`.
  So an element of the result is either the operand's element there, when no update index lands on it, or the update at
  SOME update index that lands on it (the last one in row-major order). With a constant update the second case names
  the value outright, whatever the scatter indices are and however many updates collide.
-/
import Idealize.ShloMosaic.PureOps.ShapeOps

namespace Idealize.ShloMosaic.ScatterSet

variable {α : Type} {s si u : Shape} {w : Nat}

/-- One step of the fold: update index number `n` (row-major) overwrites its result index, if it has one. -/
def step (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

/-- The set-scatter is the fold of `step` over all update indices. -/
theorem scatter_eq_foldl (d : ScatterDims s si u) (x : s.Idx → α) (idx : IVec si w) (upd : u.Idx → α) :
    Host.scatter d (fun _ b => b) x idx upd = (List.finRange u.numel).foldl (step d idx upd) x := rfl

/-- A step at an element: the update if this update index lands there, else what was there. -/
theorem step_apply_of_eq (d : ScatterDims s si u) (idx : IVec si w) (upd : u.Idx → α) (r : s.Idx → α) (n : Fin u.numel)
    (i : s.Idx) (h : d.resultIdx? (u.rowMajor.symm n) idx = some i) :
    step d idx upd r n i = upd (u.rowMajor.symm n) := by
  unfold step; rw [h]; exact if_pos rfl

theorem step_apply_of_ne (d : ScatterDims s si u) (idx : IVec si w) (upd : u.Idx → α) (r : s.Idx → α) (n : Fin u.numel)
    (i : s.Idx) (h : d.resultIdx? (u.rowMajor.symm n) idx ≠ some i) :
    step d idx upd r n i = r i := by
  unfold step
  cases hr : d.resultIdx? (u.rowMajor.symm n) idx with
  | none => rfl
  | some i0 =>
    have hne : i ≠ i0 := fun e => h (by rw [hr, e])
    exact if_neg hne

/-- The fold over any list of update indices, at one element: either some listed update index lands there and the
    element is that index's update, or none does and the element is the operand's. -/
theorem foldl_apply (d : ScatterDims s si u) (idx : IVec si w) (upd : u.Idx → α) (l : List (Fin u.numel)) (x : s.Idx → α)
    (i : s.Idx) :
    (∃ n ∈ l, d.resultIdx? (u.rowMajor.symm n) idx = some i ∧ l.foldl (step d idx upd) x i = upd (u.rowMajor.symm n))
    ∨ ((∀ n ∈ l, d.resultIdx? (u.rowMajor.symm n) idx ≠ some i) ∧ l.foldl (step d idx upd) x i = x i) := by
  induction l generalizing x with
  | nil => exact Or.inr ⟨fun n hn => absurd hn (List.not_mem_nil), rfl⟩
  | cons n l ih =>
    rw [List.foldl_cons]
    rcases ih (step d idx upd x n) with ⟨n', hn', hhit, hval⟩ | ⟨hno, hval⟩
    · exact Or.inl ⟨n', List.mem_cons_of_mem _ hn', hhit, hval⟩
    · by_cases hn : d.resultIdx? (u.rowMajor.symm n) idx = some i
      · exact Or.inl ⟨n, List.mem_cons_self, hn, hval.trans (step_apply_of_eq d idx upd x n i hn)⟩
      · refine Or.inr ⟨fun n' hn' => ?_, hval.trans (step_apply_of_ne d idx upd x n i hn)⟩
        rcases List.mem_cons.1 hn' with rfl | h'
        · exact hn
        · exact hno n' h'

/-- THE SET-SCATTER AT AN ELEMENT: the update at some update index landing there, or the operand's element when none
    lands there. -/
theorem scatter_apply (d : ScatterDims s si u) (x : s.Idx → α) (idx : IVec si w) (upd : u.Idx → α) (i : s.Idx) :
    (∃ j : u.Idx, d.resultIdx? j idx = some i ∧ Host.scatter d (fun _ b => b) x idx upd i = upd j)
    ∨ ((∀ j : u.Idx, d.resultIdx? j idx ≠ some i) ∧ Host.scatter d (fun _ b => b) x idx upd i = x i) := by
  rw [scatter_eq_foldl]
  rcases foldl_apply d idx upd (List.finRange u.numel) x i with ⟨n, -, hhit, hval⟩ | ⟨hno, hval⟩
  · exact Or.inl ⟨_, hhit, hval⟩
  · refine Or.inr ⟨fun j hj => ?_, hval⟩
    refine hno (u.rowMajor j) (List.mem_finRange _) ?_
    rw [Equiv.symm_apply_apply]; exact hj

/-- An element no update index lands on keeps the operand's value. -/
theorem scatter_apply_of_not_hit (d : ScatterDims s si u) (x : s.Idx → α) (idx : IVec si w) (upd : u.Idx → α) (i : s.Idx)
    (h : ∀ j : u.Idx, d.resultIdx? j idx ≠ some i) :
    Host.scatter d (fun _ b => b) x idx upd i = x i := by
  rcases scatter_apply d x idx upd i with ⟨j, hj, -⟩ | ⟨-, hval⟩
  · exact absurd hj (h j)
  · exact hval

/-- An element some update index lands on, under a CONSTANT update, holds that constant. -/
theorem scatter_const_apply_of_hit (d : ScatterDims s si u) (x : s.Idx → α) (idx : IVec si w) (z : α) (i : s.Idx)
    (j : u.Idx) (h : d.resultIdx? j idx = some i) :
    Host.scatter d (fun _ b => b) x idx (fun _ => z) i = z := by
  rcases scatter_apply d x idx (fun _ => z) i with ⟨_, -, hval⟩ | ⟨hno, -⟩
  · exact hval
  · exact absurd h (hno j)

/-- Where every scatter index word is zero, every window starts at the operand's origin. -/
theorem start_eq_zero (d : ScatterDims s si u) (idx : IVec si w) (hidx : ∀ k, idx k = 0#w) (j : u.Idx) (a : Fin s.rank) :
    d.start j idx a = 0 := by
  unfold ScatterDims.start
  split
  · rw [hidx]; exact BitVec.toInt_zero
  · rfl

end Idealize.ShloMosaic.ScatterSet
-- ==== Proof.RefStates.lean ====
/-
  The reference computes `states`.

  Its last operation scatters a `[64, 512]` slab of zeros into the `[64, 1024, 512]` array of `0.2 · relu(…)` values at
  the one scatter index `0` on the time axis: update index `(b, n)` lands on `(b, 0, n)`. So an element at time step
  `0` is hit and holds zero, and an element at a later time step is hit by no update index and keeps the value of the
  operations before the scatter, which read at an index are the pre-activation's `dot_general` sum, the added noise, the
  maximum with zero and the product with the 0.2 word.
-/
import proofs.«153353_j27453430956109_1_alg».proof.Proof.Gen.ReferenceIdeal.Read
import proofs.«153353_j27453430956109_1_alg».proof.Proof.LibScatterSet
import proofs.«153353_j27453430956109_1_alg».proof.Proof.Spec

noncomputable section

namespace Cert.RnnStates.Ref

open Cert.ReferenceIdeal Cert.ReferenceIdeal.Gen Cert.ReferenceIdeal.Read Idealize.ShloMosaic Idealize.ShloMosaic.ValueIdx
open Idealize.ShloMosaic.ScatterSet

/-- The scatter's dimension numbers: the update's two axes are window axes onto the operand's batch and unit axes, the
    time axis is inserted and is the one the single scatter index addresses. -/
abbrev sd : ScatterDims S64x1024x512 S1 S64x512 := scatter_S64x1024x512_S1_S64x512_01_1_1_0

/-- The scatter index array holds the word zero. -/
theorem idx_zero (k : S1.Idx) : val_main_v5 (F := Ideal) k = 0#32 := by
  rw [val_main_v5_apply, val_main_c_apply]

/-- The update slab is constantly the zero word's value. -/
theorem upd_const : val_main_v6 (F := Ideal) = fun _ => Ideal.ofBits .f32 0x00000000#32 := by
  funext j
  rw [val_main_v6_apply, val_main_cst_0_apply]
  rfl

theorem window_0 (j : S64x512.Idx) : sd.window j 0 = (j 0).val := by
  unfold ScatterDims.window
  rw [dif_pos (show (0 : Fin S64x1024x512.rank) ∈ sd.sKept by decide)]
  rfl
theorem window_1 (j : S64x512.Idx) : sd.window j 1 = 0 := by
  unfold ScatterDims.window
  rw [dif_neg (show ¬(1 : Fin S64x1024x512.rank) ∈ sd.sKept by decide)]
theorem window_2 (j : S64x512.Idx) : sd.window j 2 = (j 1).val := by
  unfold ScatterDims.window
  rw [dif_pos (show (2 : Fin S64x1024x512.rank) ∈ sd.sKept by decide)]
  rfl

/-- Update index `(b, n)` lands on `(b, 0, n)`. -/
theorem landing (j : S64x512.Idx) :
    sd.resultIdx? j (val_main_v5 (F := Ideal)) = some (ix3 (j 0) (0 : Fin 1024) (j 1)) := by
  have hs : ∀ a, sd.start j (val_main_v5 (F := Ideal)) a = 0 := start_eq_zero sd _ idx_zero j
  have hin : ∀ a, 0 ≤ sd.start j (val_main_v5 (F := Ideal)) a + sd.window j a
      ∧ sd.start j (val_main_v5 (F := Ideal)) a + sd.window j a < S64x1024x512.size a := by
    intro a
    rw [hs a]
    match a with
    | ⟨0, h⟩ =>
      have e : sd.window j ⟨0, h⟩ = (j 0).val := window_0 j
      have hlt : (j 0).val < 64 := (j 0).isLt
      rw [e]
      show (0 : Int) ≤ 0 + ((j 0).val : Int) ∧ (0 : Int) + ((j 0).val : Int) < ((64 : Nat) : Int)
      omega
    | ⟨1, h⟩ =>
      have e : sd.window j ⟨1, h⟩ = 0 := window_1 j
      rw [e]
      show (0 : Int) ≤ 0 + ((0 : Nat) : Int) ∧ (0 : Int) + ((0 : Nat) : Int) < ((1024 : Nat) : Int)
      omega
    | ⟨2, h⟩ =>
      have e : sd.window j ⟨2, h⟩ = (j 1).val := window_2 j
      have hlt : (j 1).val < 512 := (j 1).isLt
      rw [e]
      show (0 : Int) ≤ 0 + ((j 1).val : Int) ∧ (0 : Int) + ((j 1).val : Int) < ((512 : Nat) : Int)
      omega
  unfold ScatterDims.resultIdx?
  rw [dif_pos hin]
  congr 1
  funext a
  apply Fin.ext
  show (sd.start j (val_main_v5 (F := Ideal)) a + sd.window j a).toNat = _
  rw [hs a]
  match a with
  | ⟨0, h⟩ =>
    have e : sd.window j ⟨0, h⟩ = (j 0).val := window_0 j
    rw [e]; show ((0 : Int) + ((j 0).val : Int)).toNat = (j 0).val; omega
  | ⟨1, h⟩ =>
    have e : sd.window j ⟨1, h⟩ = 0 := window_1 j
    rw [e]; show ((0 : Int) + ((0 : Nat) : Int)).toNat = 0; omega
  | ⟨2, h⟩ =>
    have e : sd.window j ⟨2, h⟩ = (j 1).val := window_2 j
    rw [e]; show ((0 : Int) + ((j 1).val : Int)).toNat = (j 1).val; omega

/-- The operations before the scatter, read at an index: `0.2 · max(pre-activation, 0)`. -/
theorem before_scatter (x0 : FVec Ideal S64x1024x6 .f32) (x2 : FVec Ideal S512x6 .f32) (x3 : FVec Ideal S64x1024x512 .f32)
    (b : Fin 64) (t : Fin 1024) (n : Fin 512) :
    val_main_v4 (F := Ideal) x0 x2 x3 (ix3 b t n)
      = Ideal.ofBits .f32 0x3E4CCCCD#32 * max (preact x0 x2 x3 b t n) (Ideal.ofBits .f32 0x00000000#32) := by
  have el : ∀ k : Fin 6, lidx_main_v0 (ix3 b t n) k = ix3 b t k := fun k =>
    funext fun a => by match a with | ⟨0, _⟩ => rfl | ⟨1, _⟩ => rfl | ⟨2, _⟩ => rfl
  have er : ∀ k : Fin 6, ridx_main_v0 (ix3 b t n) k = ix2 n k := fun k =>
    funext fun a => by match a with | ⟨0, _⟩ => rfl | ⟨1, _⟩ => rfl
  rw [val_main_v4_apply, val_main_v3_apply, val_main_cst_apply, val_main_v2_apply, val_main_v1_apply, val_main_v0_apply,
    val_main_call0_v0_apply, val_main_call0_cst_apply]
  simp only [el, er]
  rfl

/-- THE REFERENCE'S RESULT is `states` of its arguments. -/
theorem result_eq (x0 : FVec Ideal S64x1024x6 .f32) (x2 : FVec Ideal S512x6 .f32) (x3 : FVec Ideal S64x1024x512 .f32) :
    val_main_v7 (F := Ideal) x0 x2 x3 = states x0 x2 x3 := by
  funext i
  obtain ⟨b, t, n, rfl⟩ : ∃ (b : Fin 64) (t : Fin 1024) (n : Fin 512), i = ix3 b t n := ⟨i 0, i 1, i 2, eq_ix3 i⟩
  rw [states_ix3]
  unfold val_main_v7 stateAt
  by_cases ht : t.val = 0
  · rw [if_pos ht, upd_const]
    refine scatter_const_apply_of_hit sd _ _ _ _ (ix2 b n) ?_
    rw [landing]
    have : t = 0 := Fin.ext ht
    subst this
    rfl
  · rw [if_neg ht]
    rw [scatter_apply_of_not_hit sd _ _ _ _ (fun j hj => ?_)]
    · exact before_scatter x0 x2 x3 b t n
    · rw [landing] at hj
      have := congrFun (Option.some.inj hj) 1
      exact ht (congrArg Fin.val this).symm

end Cert.RnnStates.Ref

end
-- ==== Proof.lean ====
/-
  A leaky rectified recurrent layer whose recurrent term vanishes: for a batch `b`, a time step `t ≥ 1` and a unit
  `n` the state is `0.2 · max(∑ k < 6, u[b, t, k] · w_in[n, k] + noise[b, t, n], 0)`, and the states of time step 0 are
  zero. The recurrent weights are an argument neither program reads.

  The kernel computes one batch per grid point: the `[1024, 6]` inputs times the transposed `[512, 6]` weights (both
  through a change of float format, the identity on the extended reals) into a zero accumulator, plus the noise, the
  maximum with zero, the product with the 0.2 word, and a select on a row counter that writes zero into row 0. The
  reference contracts the whole arrays in one `dot_general`, applies the same pointwise operations with the same two
  literal words, and then scatters a slab of zeros onto time step 0.

  Both are the function `Cert.RnnStates.states` (Proof/Spec.lean) of the argument arrays, index by index, and no
  algebraic law is needed between them beyond the sum's re-indexing, so the precondition is not opened:
    · Proof/BodyValue.lean — the kernel body's stored block at an element (the matrix product as a sum over the six
      channels; the row mask);
    · Proof/KernelStates.lean — what each grid point writes back is its batch of `states`, the blocks cover the result,
      hence the kernel's run ends with the result at `states`;
    · Proof/LibScatterSet.lean — an overwriting scatter read at one element;
    · Proof/RefStates.lean — the reference's last stage is `states` (the scatter hits exactly time step 0).
  The frames of the two kernel programs are their frame runs; the reference's frame is its run with the result dropped;
  the idealization rewrote nothing, so `preserves` is `True`.
-/
import proofs.«153353_j27453430956109_1_alg».proof.Defs
import proofs.«153353_j27453430956109_1_alg».proof.Proof.Gen.Kernel
import proofs.«153353_j27453430956109_1_alg».proof.Proof.Gen.Kernel.Skeleton
import proofs.«153353_j27453430956109_1_alg».proof.Proof.Gen.Kernel.Launch
import proofs.«153353_j27453430956109_1_alg».proof.Proof.Gen.Kernel.Points
import proofs.«153353_j27453430956109_1_alg».proof.Proof.Gen.Kernel.Frame
import proofs.«153353_j27453430956109_1_alg».proof.Proof.Gen.KernelIdeal
import proofs.«153353_j27453430956109_1_alg».proof.Proof.Gen.KernelIdeal.Skeleton
import proofs.«153353_j27453430956109_1_alg».proof.Proof.Gen.KernelIdeal.Launch
import proofs.«153353_j27453430956109_1_alg».proof.Proof.Gen.KernelIdeal.Points
import proofs.«153353_j27453430956109_1_alg».proof.Proof.Gen.KernelIdeal.Frame
import proofs.«153353_j27453430956109_1_alg».proof.Proof.Gen.ReferenceIdeal
import proofs.«153353_j27453430956109_1_alg».proof.Proof.Gen.Pre_finite_inputs
import proofs.«153353_j27453430956109_1_alg».proof.Proof.Gen.KernelIdeal.Value
import proofs.«153353_j27453430956109_1_alg».proof.Proof.Gen.ReferenceIdeal.Run
import proofs.«153353_j27453430956109_1_alg».proof.Proof.Gen.ReferenceIdeal.Read
import proofs.«153353_j27453430956109_1_alg».proof.Proof.KernelStates
import proofs.«153353_j27453430956109_1_alg».proof.Proof.RefStates
import Idealize.ShloMosaic.Adequacy
import Idealize.ShloMosaic.Init

noncomputable section

namespace Cert.Proof

open Idealize.ShloMosaic Idealize.ShloMosaic.TcCoe Idealize.SL.Sem

/-- The word-level kernel runs and keeps its arguments: its frame run. -/
theorem frame_kernel : Cert.frame_Kernel := fun m ρ _ => Cert.Kernel.Gen.frame m ρ

/-- The same for the idealized kernel. -/
theorem frame_kernel_ideal : Cert.frame_KernelIdeal := fun m ρ _ => Cert.KernelIdeal.Gen.frame m ρ

/-- The reference runs and keeps its arguments: its run, the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation was rewritten by the idealization. -/
theorem preserves : Cert.preserves_Kernel_KernelIdeal := trivial

/-- From memories agreeing on the arguments both programs end with the result at `states` of the inputs, the input
    weights and the noise. -/
theorem algebraic : Cert.algebraic_KernelIdeal_ReferenceIdeal := by
  intro m ρ m' ρ' _ hagree
  refine ⟨_, Cert.RnnStates.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.RnnStates.Ref.result_eq, (hagree c).1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
